-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x32 .f32) (main_arg6 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S2000x64 : Shape := ⟨2, ![2000, 64]⟩
abbrev S2000x1 : Shape := ⟨2, ![2000, 1]⟩
abbrev S1x64 : Shape := ⟨2, ![1, 64]⟩
abbrev S50000x32 : Shape := ⟨2, ![50000, 32]⟩
abbrev S2000x32 : Shape := ⟨2, ![2000, 32]⟩
abbrev S1x32 : Shape := ⟨2, ![1, 32]⟩

abbrev nBuf : Space → Nat
  | .hbm => 61
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x64, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S50000x1, .f32⟩
  | .hbm, ⟨42, _⟩ => ⟨S50000x64, .f32⟩
  | .hbm, ⟨43, _⟩ => ⟨S50000x1, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S50000x1, .f32⟩
  | .hbm, ⟨60, _⟩ => ⟨S50000x32, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S64x64, .f32⟩
  | .local _ .vmem, ⟨5, _⟩ => ⟨S64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x1, .f32⟩
  | .local _ .vmem, ⟨11, _⟩ => ⟨S2000x1, .f32⟩
  | .local _ .vmem, ⟨12, _⟩ => ⟨S64x32, .f32⟩
  | .local _ .vmem, ⟨13, _⟩ => ⟨S32, .f32⟩
  | .local _ .vmem, ⟨14, _⟩ => ⟨S2000x32, .f32⟩
  | .local _ .vmem, ⟨15, _⟩ => ⟨S2000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  shapeCasts_S50000_S50000x1 : S50000.ShapeCasts S50000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S50000x32.size a
  hwx1_4 : ∀ i : grid1.Coords, EltTy.bits .f32 = 32 ∨ (Rect.block (s := S50000x32) S2000x32.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf

abbrev win0_0 : Pipeline.Window sig grid0 :=
  Pipeline.Window.ofSpec (Memref.whole main_v25) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S2000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S50000x32 : Shape := ⟨2, ![50000, 32]⟩
abbrev S1x32 : Shape := ⟨2, ![1, 32]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x64, .f32⟩
  | .hbm, ⟨72, _⟩ => ⟨S50000x64, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S50000x32, .f32⟩
  | .hbm, ⟨89, _⟩ => ⟨S1x32, .f32⟩
  | .hbm, ⟨90, _⟩ => ⟨S50000x32, .f32⟩
  | .hbm, ⟨91, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.DenseLaw.lean ====
/-
  One dense layer of a graph convolution over the extended reals, read at one entry.

  The layer takes an aggregated feature matrix A [n, K], a per-row scale d (the inverse square root of a node's clamped
  in-degree), a weight matrix W [K, N] and a bias b [N]; its entry (p, q) is

      sum over k of (A (p, k) * d p) * W (k, q)   +   b q.

  Two spellings of it are read at (p, q) here, generic in the extents. A kernel's: the scale arrives as a one-column
  matrix broadcast along the rows, both matrix-product operands are narrowed to bf16 (the identity on extended reals),
  the product goes into a zero accumulator, and the bias arrives as a vector cast to one row and broadcast down the
  rows. The host's: the scale vector is broadcast to a column and then along the rows, the product is a dot_general,
  and the bias vector is broadcast to one row and then down the rows. Both are the entry above, term for term; no
  law of arithmetic is used, so nothing here asks the entries to be finite.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«137707_j19713899889202_1_alg».proof.Proof.LibPlainDot
import proofs.«137707_j19713899889202_1_alg».proof.Proof.LibKeepdims

noncomputable section

namespace Cert.GraphConv

open Idealize.ShloMosaic Idealize.ShloMosaic.ValueIdx

/-- Entry (p, q) of the layer: the scaled row p of `A` against column q of `W`, plus the bias at q. -/
def denseEntry {n K N : ℕ} (A : (⟨2, ![n, K]⟩ : Shape).Idx → EReal) (d : Fin n → EReal)
    (W : (⟨2, ![K, N]⟩ : Shape).Idx → EReal) (b : (⟨1, ![N]⟩ : Shape).Idx → EReal) (p : Fin n) (q : Fin N) : EReal :=
  (∑ k : Fin K, A (ix2 p k) * d p * W (ix2 k q)) + b (ix1 q)

/-- The layer depends on the scale only through its value at the row read. -/
theorem denseEntry_congr {n K N : ℕ} (A A' : (⟨2, ![n, K]⟩ : Shape).Idx → EReal) (d d' : Fin n → EReal)
    (W : (⟨2, ![K, N]⟩ : Shape).Idx → EReal) (b : (⟨1, ![N]⟩ : Shape).Idx → EReal) (p : Fin n) (q : Fin N)
    (hA : ∀ k, A (ix2 p k) = A' (ix2 p k)) (hd : d p = d' p) : denseEntry A d W b p q = denseEntry A' d' W b p q := by
  unfold denseEntry
  rw [hd]
  exact congrArg (· + b (ix1 q)) (Finset.sum_congr rfl fun k _ => by rw [hA k])

/-- An entry of the layer over a BLOCK of the rows equals the entry of the layer over the whole arrays, when the block's
    row `p` is the arrays' row `P` (features and scale) and the weights and bias read agree at columns `q`, `Q`. -/
theorem denseEntry_block {a n K N N' : ℕ} (x0 : (⟨2, ![a, K]⟩ : Shape).Idx → EReal) (d0 : Fin a → EReal)
    (x2 : (⟨2, ![K, N]⟩ : Shape).Idx → EReal) (x3 : (⟨1, ![N]⟩ : Shape).Idx → EReal)
    (A : (⟨2, ![n, K]⟩ : Shape).Idx → EReal) (d : Fin n → EReal)
    (W : (⟨2, ![K, N']⟩ : Shape).Idx → EReal) (b : (⟨1, ![N']⟩ : Shape).Idx → EReal)
    (p : Fin a) (q : Fin N) (P : Fin n) (Q : Fin N')
    (hA : ∀ k, x0 (ix2 p k) = A (ix2 P k)) (hd : d0 p = d P)
    (hW : ∀ k, x2 (ix2 k q) = W (ix2 k Q)) (hb : x3 (ix1 q) = b (ix1 Q)) :
    denseEntry x0 d0 x2 x3 p q = denseEntry A d W b P Q := by
  unfold denseEntry
  rw [hd, hb]
  exact congrArg (· + b (ix1 Q)) (Finset.sum_congr rfl fun k _ => by rw [hA k, hW k])

/-- The kernel's spelling at (p, q): scale column broadcast along the rows, bf16-narrowed operands into a zero
    accumulator, bias vector as one row broadcast down the rows. -/
theorem kernel_dense_apply {a K N : ℕ} (D : DotDims ⟨2, ![a, K]⟩ ⟨2, ![K, N]⟩ ⟨2, ![a, N]⟩) (hD : D = DotDims.plain a K N)
    (x0 : FVec Ideal ⟨2, ![a, K]⟩ .f32) (x1 : FVec Ideal ⟨2, ![a, 1]⟩ .f32) (x2 : FVec Ideal ⟨2, ![K, N]⟩ .f32)
    (x3 : FVec Ideal ⟨1, ![N]⟩ .f32)
    (h0 : (⟨2, ![a, K]⟩ : Shape).ShapeCasts ⟨2, ![a, K]⟩) (h1 : (⟨2, ![a, 1]⟩ : Shape).ShapeCasts ⟨2, ![a, 1]⟩)
    (hb : (⟨2, ![a, 1]⟩ : Shape).Broadcasts ⟨2, ![a, K]⟩) (hlt : FTy.bits .bf16 < FTy.bits .f32)
    (hc : (⟨1, ![N]⟩ : Shape).ShapeCasts ⟨2, ![1, N]⟩) (hr : (⟨2, ![1, N]⟩ : Shape).Broadcasts ⟨2, ![a, N]⟩)
    (p : Fin a) (q : Fin N) :
    addf (FloatOps.matmul D none
          (truncf .bf16 (mulf (shapeCast ⟨2, ![a, K]⟩ x0 h0) (broadcastTo ⟨2, ![a, K]⟩ (shapeCast ⟨2, ![a, 1]⟩ x1 h1) hb)) hlt)
          (truncf .bf16 x2 hlt) (constant ⟨2, ![a, N]⟩ .f32 0x00000000#32))
        (broadcastTo ⟨2, ![a, N]⟩ (shapeCast ⟨2, ![1, N]⟩ x3 hc) hr) (ix2 p q)
      = denseEntry x0 (fun r => x1 (ix2 r (0 : Fin 1))) x2 x3 p q := by
  subst hD
  rw [addf_apply, Cert.Lib.PlainDot.matmul_zero_apply, broadcastTo_1b_ab_apply, shapeCast_a_1a_apply]
  unfold denseEntry
  refine congrArg (· + x3 (ix1 q)) (Finset.sum_congr rfl fun k _ => ?_)
  rw [truncf_apply, truncf_apply, mulf_apply, shapeCast_self, shapeCast_self,
    Cert.Lib.Keepdims.broadcastTo_a1_ab_apply]

/-- A vector broadcast to a column and then along the rows reads, at (p, k), the vector at p. -/
theorem rowScale_apply {n K : ℕ} {α : Type} (d : (⟨1, ![n]⟩ : Shape).Idx → α)
    (hcol : (⟨1, ![n]⟩ : Shape).BroadcastsInDim ⟨2, ![n, 1]⟩ ![0])
    (hrow : (⟨2, ![n, 1]⟩ : Shape).BroadcastsInDim ⟨2, ![n, K]⟩ ![0, 1]) (p : Fin n) (k : Fin K) :
    broadcastInDim ⟨2, ![n, K]⟩ ![0, 1] hrow (broadcastInDim ⟨2, ![n, 1]⟩ ![0] hcol d) (ix2 p k) = d (ix1 p) := by
  rw [broadcastInDim_apply ![0, 1] hrow _ (ix2 p k) (ix2 p (0 : Fin 1)) (fun ax => by
      match ax with
      | ⟨0, _⟩ =>
        show p.val = if n = 1 then 0 else p.val
        split
        · have := p.isLt; omega
        · rfl
      | ⟨1, _⟩ => rfl)]
  exact broadcastInDim_apply ![0] hcol d (ix2 p (0 : Fin 1)) (ix1 p) (fun ax => by
      match ax with
      | ⟨0, _⟩ =>
        show p.val = if n = 1 then 0 else p.val
        split
        · have := p.isLt; omega
        · rfl)

/-- A vector broadcast to one row and then down the rows reads, at (p, q), the vector at q. -/
theorem rowBias_apply {n N : ℕ} {α : Type} (b : (⟨1, ![N]⟩ : Shape).Idx → α)
    (hrow : (⟨1, ![N]⟩ : Shape).BroadcastsInDim ⟨2, ![1, N]⟩ ![1])
    (hall : (⟨2, ![1, N]⟩ : Shape).BroadcastsInDim ⟨2, ![n, N]⟩ ![0, 1]) (p : Fin n) (q : Fin N) :
    broadcastInDim ⟨2, ![n, N]⟩ ![0, 1] hall (broadcastInDim ⟨2, ![1, N]⟩ ![1] hrow b) (ix2 p q) = b (ix1 q) := by
  rw [broadcastInDim_oneRow_apply hall _ p q]
  exact broadcastInDim_apply ![1] hrow b (ix2 (0 : Fin 1) q) (ix1 q) (fun ax => by
      match ax with
      | ⟨0, _⟩ =>
        show q.val = if N = 1 then 0 else q.val
        split
        · have := q.isLt; omega
        · rfl)

/-- The host's spelling at (p, q): scale vector broadcast to a column and along the rows, a dot_general, bias vector
    broadcast to a row and down the rows. -/
theorem host_dense_apply {n K N : ℕ} (D : DotDims ⟨2, ![n, K]⟩ ⟨2, ![K, N]⟩ ⟨2, ![n, N]⟩) (hD : D = DotDims.plain n K N)
    (A : FVec Ideal ⟨2, ![n, K]⟩ .f32) (d : FVec Ideal ⟨1, ![n]⟩ .f32) (W : FVec Ideal ⟨2, ![K, N]⟩ .f32)
    (b : FVec Ideal ⟨1, ![N]⟩ .f32)
    (hcol : (⟨1, ![n]⟩ : Shape).BroadcastsInDim ⟨2, ![n, 1]⟩ ![0])
    (hrow : (⟨2, ![n, 1]⟩ : Shape).BroadcastsInDim ⟨2, ![n, K]⟩ ![0, 1])
    (hb1 : (⟨1, ![N]⟩ : Shape).BroadcastsInDim ⟨2, ![1, N]⟩ ![1])
    (hb2 : (⟨2, ![1, N]⟩ : Shape).BroadcastsInDim ⟨2, ![n, N]⟩ ![0, 1]) (p : Fin n) (q : Fin N) :
    addf (Host.dotGeneral D none
          (mulf A (broadcastInDim ⟨2, ![n, K]⟩ ![0, 1] hrow (broadcastInDim ⟨2, ![n, 1]⟩ ![0] hcol d))) W)
        (broadcastInDim ⟨2, ![n, N]⟩ ![0, 1] hb2 (broadcastInDim ⟨2, ![1, N]⟩ ![1] hb1 b)) (ix2 p q)
      = denseEntry A (fun r => d (ix1 r)) W b p q := by
  subst hD
  rw [addf_apply, rowBias_apply]
  show FloatOps.dotGeneral (DotDims.plain n K N) none .single _ _ (ix2 p q) + b (ix1 q) = _
  rw [Cert.Lib.PlainDot.dotGeneral_apply]
  unfold denseEntry
  refine congrArg (· + b (ix1 q)) (Finset.sum_congr rfl fun k _ => ?_)
  rw [mulf_apply, rowScale_apply]

end Cert.GraphConv

end
-- ==== Proof.Spec.lean ====
/-
  The two-layer graph convolution as one function of its seven arguments.

  For node features x [50000, 64], edge endpoints src, dst [800000] and the two layers' weights and biases:

    ns = rsqrt (max (number of edges leaving each node) 1),   nd = rsqrt (max (number of edges entering each node) 1)
    aggregate h   = for each node, the sum over its incoming edges e of (h * ns) at row src e
    hidden        = max ((aggregate x * nd) W1 + b1) 0
    result        = (aggregate hidden * nd) W2 + b2

  The degree counts, the gather along src and the scatter-add along dst are the SAME host operations in the kernel's
  program and in the reference (out-of-range indices included: both clamp the gather and drop the scatter alike),
  so they are carried here as opaque functions at any float instance, never opened. The dense layers are stated
  entry by entry over the extended reals through `denseEntry`.
-/
import proofs.«137707_j19713899889202_1_alg».proof.KernelIdeal
import proofs.«137707_j19713899889202_1_alg».proof.Proof.DenseLaw

noncomputable section

namespace Cert.GraphConv

open Idealize.ShloMosaic Idealize.ShloMosaic.ValueIdx Cert.KernelIdeal
open Cert.KernelIdeal.Facts₀

variable [Cert.KernelIdeal.Facts]

section AnyFloat
variable {F : FTy → Type} [FloatOps F]

/-- The inverse square root of each node's degree clamped below at 1: the count of edges whose endpoint word `idx`
    names the node (a scatter-add of ones into zeros), `max` with 1, `rsqrt`. -/
def degNorm (idx : (⟨S800000, .i32⟩ : BufTy).Contents (Elt F)) : (⟨S50000, .f32⟩ : BufTy).Contents (Elt F) :=
  Host.rsqrt (maximumf
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32)))
    (broadcastInDim S50000 ![] bcast_S_S50000 (constant S_ .f32 0x3F800000#32)))

/-- Message passing along the edges: the rows of `h` scaled by `ns`, gathered at `src` (a negative word wrapped by
    the row count first, as jnp indexing does) and summed into the rows `dst` names. -/
def aggregate (h : (⟨S50000x64, .f32⟩ : BufTy).Contents (Elt F)) (ns : (⟨S50000, .f32⟩ : BufTy).Contents (Elt F))
    (src dst : (⟨S800000, .i32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164
      (mulf h (broadcastInDim S50000x64 ![0, 1] bcast_S50000x1_S50000x64_0_1 (broadcastInDim S50000x1 ![0] bcast_S50000_S50000x1_0 ns)))
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

end AnyFloat

/-- The first layer with its ramp, the scale given per row: entry (p, q) is `max (denseEntry …) 0`. -/
def hiddenRows (A : FVec Ideal S50000x64 .f32) (d : Fin 50000 → EReal) (W : FVec Ideal S64x64 .f32) (b : FVec Ideal S64 .f32) :
    FVec Ideal S50000x64 .f32 :=
  fun i => max (denseEntry A d W b ⟨(i 0).val, idx2_lt0 i⟩ ⟨(i 1).val, idx2_lt1 i⟩) (Ideal.ofBits .f32 0x00000000#32)

/-- The second layer (no ramp), the scale given per row. -/
def outRows (A : FVec Ideal S50000x64 .f32) (d : Fin 50000 → EReal) (W : FVec Ideal S64x32 .f32) (b : FVec Ideal S32 .f32) :
    FVec Ideal S50000x32 .f32 :=
  fun i => denseEntry A d W b ⟨(i 0).val, idx2_lt0 i⟩ ⟨(i 1).val, idx2_lt1 i⟩

/-- The first layer with the scale a vector over the nodes. -/
def hiddenLayer (A : FVec Ideal S50000x64 .f32) (d : FVec Ideal S50000 .f32) (W : FVec Ideal S64x64 .f32) (b : FVec Ideal S64 .f32) :
    FVec Ideal S50000x64 .f32 := hiddenRows A (fun r => d (ix1 r)) W b

/-- The second layer with the scale a vector over the nodes. -/
def outLayer (A : FVec Ideal S50000x64 .f32) (d : FVec Ideal S50000 .f32) (W : FVec Ideal S64x32 .f32) (b : FVec Ideal S32 .f32) :
    FVec Ideal S50000x32 .f32 := outRows A (fun r => d (ix1 r)) W b

/-- The whole network over the extended reals. -/
def network (x : FVec Ideal S50000x64 .f32) (src dst : IVec S800000 32) (W1 : FVec Ideal S64x64 .f32) (b1 : FVec Ideal S64 .f32)
    (W2 : FVec Ideal S64x32 .f32) (b2 : FVec Ideal S32 .f32) : FVec Ideal S50000x32 .f32 :=
  outLayer (aggregate (F := Ideal) (hiddenLayer (aggregate (F := Ideal) x (degNorm (F := Ideal) src) src dst) (degNorm (F := Ideal) dst) W1 b1)
      (degNorm (F := Ideal) src) src dst) (degNorm (F := Ideal) dst) W2 b2

/-- The scale reaching a kernel as the vector reshaped to one column is the vector, row by row. -/
theorem colScale_eq (d : FVec Ideal S50000 .f32) (r : Fin 50000) :
    shapeCast S50000x1 d shapeCasts_S50000_S50000x1 (ix2 r (0 : Fin 1)) = d (ix1 r) :=
  Cert.Lib.Keepdims.shapeCast_a_a1_apply d shapeCasts_S50000_S50000x1 r 0

end Cert.GraphConv

end
-- ==== Proof.Region0.lean ====
/-
  What the first pallas_call leaves in its output array, for ANY contents `V` of the TensorCore's buffers at its entry.

  The call runs 25 grid points; point t stages rows 2000 t … 2000 t + 1999 of the aggregated features (window 0) and
  of the one-column scale (window 1), the whole weight matrix and bias (windows 2, 3), and writes back rows
  2000 t … 2000 t + 1999 of the result (window 4). The body's one store is `max (((x0 * x1) as bf16) (x2 as bf16) + x3) 0`
  of the staged blocks, so entry (p, q) of what point t writes back is the first layer's entry (2000 t + p, q) of the
  whole arrays; the 25 blocks tile the 50000 rows, so the array ends holding the first layer everywhere.
-/
import proofs.«137707_j19713899889202_1_alg».proof.Proof.Gen.KernelIdeal.Frame
import proofs.«137707_j19713899889202_1_alg».proof.Proof.Spec
import Idealize.ShloMosaic.Lib.Pipeline.Value

set_option maxRecDepth 16384

noncomputable section

namespace Cert.GraphConv.Region0

open Idealize.ShloMosaic Idealize.ShloMosaic.TcCoe Idealize.ShloMosaic.ValueIdx Idealize.SL.Sem
open Cert.KernelIdeal Cert.KernelIdeal.Gen Cert.GraphConv
open Idealize.ShloMosaic.Pipeline (Dat Cfg Window)
open Cert.KernelIdeal.Facts₀

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's stored value at entry (p, q) of the block: the layer's entry over the staged blocks, then the ramp. -/
theorem payload_apply (x0 : Vec Ideal S2000x64 .f32) (x1 : Vec Ideal S2000x1 .f32) (x2 : Vec Ideal S64x64 .f32)
    (x3 : Vec Ideal S64 .f32) (p : Fin 2000) (q : Fin 64) :
    k0_pay1 x0 x1 x2 x3 (ix2 p q)
      = max (denseEntry x0 (fun r => x1 (ix2 r (0 : Fin 1))) x2 x3 p q) (Ideal.ofBits .f32 0x00000000#32) := by
  unfold k0_pay1
  exact congrArg (fun z => max z (Ideal.ofBits .f32 0x00000000#32))
    (kernel_dense_apply _ rfl x0 x1 x2 x3 _ _ _ _ _ _ p q)

/-- The printed index maps over the grid: the row-blocked windows (0, 1, 4) sit at block row t, column block 0; the
    weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- WHAT POINT `t` WRITES BACK is block `t` of the first layer of the arrays as the call finds them. -/
theorem flushed_eq (c : Dev nD) (t : Fin cfg0.N) :
    (dat0 V c).flushed 4 t = ((cfg0.win 4).blk t).view.read (Elt Ideal)
      (hiddenRows (V c main_v25) (fun r => V c main_v26 (ix2 r (0 : Fin 1))) (V c main_arg3) (V c main_arg4)) := by
  show (cfg0.win 4).cut (grid0.coords t) ((dat0 V c).after 4 t) = _
  rw [after0_4]
  unfold out0_4
  rw [View.canon_unit_zero zeros2]
  simp only [View.ld_unit_zero (S := S2000x64) zeros2, View.ld_unit_zero (S := S2000x1) zeros2,
    View.ld_unit_zero (S := S64x64) zeros2, View.ld_unit_zero (S := S64) zeros1]
  obtain ⟨e00, e01, e10, e11, e20, e21, e30, e40, e41⟩ := idx_facts t
  funext j
  obtain ⟨p, q, rfl⟩ : ∃ (p : Fin 2000) (q : Fin 64), j = ix2 p q := ⟨j 0, j 1, eq_ix2 j⟩
  show k0_pay1 (iblk0 V c 0 t) (iblk0 V c 1 t) (iblk0 V c 2 t) (iblk0 V c 3 t) (ix2 p q)
    = hiddenRows (V c main_v25) (fun r => V c main_v26 (ix2 r (0 : Fin 1))) (V c main_arg3) (V c main_arg4)
        (((cfg0.win 4).blk t).view.emb (ix2 p q))
  refine (payload_apply (iblk0 V c 0 t) (iblk0 V c 1 t) (iblk0 V c 2 t) (iblk0 V c 3 t) p q).trans ?_
  unfold hiddenRows
  refine congrArg (fun z => max z (Ideal.ofBits .f32 0x00000000#32)) (denseEntry_block _ _ _ _ _ _ _ _ p q _ _ ?_ ?_ ?_ ?_)
  · intro k
    show V c main_v25 (((cfg0.win 0).blk t).view.emb (ix2 p k)) = V c main_v25 (ix2 _ k)
    refine congrArg (V c main_v25) (funext fun a => Fin.ext ?_)
    match a with
    | ⟨0, _⟩ =>
      show win0_0.index t (0 : Fin 2) * 2000 + 1 * p.val = win0_4.index t (0 : Fin 2) * 2000 + 1 * p.val
      omega
    | ⟨1, _⟩ =>
      show win0_0.index t (1 : Fin 2) * 64 + 1 * k.val = k.val
      omega
  · show V c main_v26 (((cfg0.win 1).blk t).view.emb (ix2 p (0 : Fin 1))) = V c main_v26 (ix2 _ (0 : Fin 1))
    refine congrArg (V c main_v26) (funext fun a => Fin.ext ?_)
    match a with
    | ⟨0, _⟩ =>
      show win0_1.index t (0 : Fin 2) * 2000 + 1 * p.val = win0_4.index t (0 : Fin 2) * 2000 + 1 * p.val
      omega
    | ⟨1, _⟩ =>
      show win0_1.index t (1 : Fin 2) * 1 + 1 * 0 = 0
      omega
  · intro k
    show V c main_arg3 (((cfg0.win 2).blk t).view.emb (ix2 k q)) = V c main_arg3 (ix2 k _)
    refine congrArg (V c main_arg3) (funext fun a => Fin.ext ?_)
    match a with
    | ⟨0, _⟩ =>
      show win0_2.index t (0 : Fin 2) * 64 + 1 * k.val = k.val
      omega
    | ⟨1, _⟩ =>
      show win0_2.index t (1 : Fin 2) * 64 + 1 * q.val = win0_4.index t (1 : Fin 2) * 64 + 1 * q.val
      omega
  · show V c main_arg4 (((cfg0.win 3).blk t).view.emb (ix1 q)) = V c main_arg4 (ix1 _)
    refine congrArg (V c main_arg4) (funext fun a => Fin.ext ?_)
    match a with
    | ⟨0, _⟩ =>
      show win0_3.index t (0 : Fin 1) * 64 + 1 * q.val = win0_4.index t (1 : Fin 2) * 64 + 1 * q.val
      omega

/-- An index of the output array is in point `t`'s block iff each coordinate is in the block's range on its axis. -/
theorem mem_blk (t : Fin cfg0.N) (i : S50000x64.Idx) :
    i ∈ ((cfg0.win 4).blk t).view.set ↔
      ∀ a : Fin 2, win0_4.index t a * S2000x64.size a ≤ (i a).val ∧ (i a).val < win0_4.index t a * S2000x64.size a + S2000x64.size a := by
  show i ∈ ((View.whole main_v27).slice (win0_4.rect t)).set ↔ _
  rw [View.set_slice_whole, Rect.mem_set_unit]
  exact Iff.rfl

/-- Every index of the output array is in the block of the point its row falls in (row r is in block r / 2000). -/
theorem cover (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  have ht : (i 0).val / 2000 < cfg0.N := by
    show (i 0).val / 2000 < grid0.N
    rw [N_0]; omega
  obtain ⟨-, -, -, -, -, -, -, e40, e41⟩ := idx_facts ⟨(i 0).val / 2000, ht⟩
  have e40' : win0_4.index ⟨(i 0).val / 2000, ht⟩ (0 : Fin 2) = (i 0).val / 2000 := e40
  refine ⟨⟨(i 0).val / 2000, ht⟩, flush0_4 _, ?_⟩
  rw [mem_blk]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    omega
  | ⟨1, _⟩ =>
    show win0_4.index ⟨(i 0).val / 2000, ht⟩ (1 : Fin 2) * 64 ≤ (i 1).val
      ∧ (i 1).val < win0_4.index ⟨(i 0).val / 2000, ht⟩ (1 : Fin 2) * 64 + 64
    omega

/-- THE ARRAY after the call: the first layer (with its ramp) of the arrays as the call finds them. -/
theorem final (c : Dev nD) :
    (dat0 V c).arrAt 4 cfg0.N
      = hiddenRows (V c main_v25) (fun r => V c main_v26 (ix2 r (0 : Fin 1))) (V c main_arg3) (V c main_arg4) :=
  (dat0 V c).arrAt_eq_of_cover 4 _ (fun t _ => flushed_eq V c t) cover

end Cert.GraphConv.Region0

end
-- ==== Proof.Region1.lean ====
/-
  What the second pallas_call leaves in its output array, for ANY contents `V` of the TensorCore's buffers at its entry.

  The same schedule as the first call on the second layer's sizes: 25 grid points; point t stages rows
  2000 t … 2000 t + 1999 of the aggregated hidden features (window 0) and of the one-column scale (window 1), the whole
  [64, 32] weight matrix and the bias (windows 2, 3), and writes back rows 2000 t … 2000 t + 1999 of the [50000, 32]
  result (window 4). The body's one store is `((x0 * x1) as bf16) (x2 as bf16) + x3` — no ramp on the last layer —, so
  entry (p, q) of what point t writes back is the second layer's entry (2000 t + p, q) of the whole arrays, and the 25
  blocks tile the rows.
-/
import proofs.«137707_j19713899889202_1_alg».proof.Proof.Gen.KernelIdeal.Frame
import proofs.«137707_j19713899889202_1_alg».proof.Proof.Spec
import Idealize.ShloMosaic.Lib.Pipeline.Value

set_option maxRecDepth 16384

noncomputable section

namespace Cert.GraphConv.Region1

open Idealize.ShloMosaic Idealize.ShloMosaic.TcCoe Idealize.ShloMosaic.ValueIdx Idealize.SL.Sem
open Cert.KernelIdeal Cert.KernelIdeal.Gen Cert.GraphConv
open Idealize.ShloMosaic.Pipeline (Dat Cfg Window)
open Cert.KernelIdeal.Facts₀

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's stored value at entry (p, q) of the block: the layer's entry over the staged blocks. -/
theorem payload_apply (x0 : Vec Ideal S2000x64 .f32) (x1 : Vec Ideal S2000x1 .f32) (x2 : Vec Ideal S64x32 .f32)
    (x3 : Vec Ideal S32 .f32) (p : Fin 2000) (q : Fin 32) :
    k1_pay1 x0 x1 x2 x3 (ix2 p q) = denseEntry x0 (fun r => x1 (ix2 r (0 : Fin 1))) x2 x3 p q := by
  unfold k1_pay1
  exact kernel_dense_apply _ rfl x0 x1 x2 x3 _ _ _ _ _ _ p q

/-- The printed index maps over the grid: the row-blocked windows (0, 1, 4) sit at block row t, column block 0; the
    weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- WHAT POINT `t` WRITES BACK is block `t` of the second layer of the arrays as the call finds them. -/
theorem flushed_eq (c : Dev nD) (t : Fin cfg1.N) :
    (dat1 V c).flushed 4 t = ((cfg1.win 4).blk t).view.read (Elt Ideal)
      (outRows (V c main_v40) (fun r => V c main_v41 (ix2 r (0 : Fin 1))) (V c main_arg5) (V c main_arg6)) := by
  show (cfg1.win 4).cut (grid1.coords t) ((dat1 V c).after 4 t) = _
  rw [after1_4]
  unfold out1_4
  rw [View.canon_unit_zero zeros2]
  simp only [View.ld_unit_zero (S := S2000x64) zeros2, View.ld_unit_zero (S := S2000x1) zeros2,
    View.ld_unit_zero (S := S64x32) zeros2, View.ld_unit_zero (S := S32) zeros1]
  obtain ⟨e00, e01, e10, e11, e20, e21, e30, e40, e41⟩ := idx_facts t
  funext j
  obtain ⟨p, q, rfl⟩ : ∃ (p : Fin 2000) (q : Fin 32), j = ix2 p q := ⟨j 0, j 1, eq_ix2 j⟩
  show k1_pay1 (iblk1 V c 0 t) (iblk1 V c 1 t) (iblk1 V c 2 t) (iblk1 V c 3 t) (ix2 p q)
    = outRows (V c main_v40) (fun r => V c main_v41 (ix2 r (0 : Fin 1))) (V c main_arg5) (V c main_arg6)
        (((cfg1.win 4).blk t).view.emb (ix2 p q))
  refine (payload_apply (iblk1 V c 0 t) (iblk1 V c 1 t) (iblk1 V c 2 t) (iblk1 V c 3 t) p q).trans ?_
  unfold outRows
  refine denseEntry_block _ _ _ _ _ _ _ _ p q _ _ ?_ ?_ ?_ ?_
  · intro k
    show V c main_v40 (((cfg1.win 0).blk t).view.emb (ix2 p k)) = V c main_v40 (ix2 _ k)
    refine congrArg (V c main_v40) (funext fun a => Fin.ext ?_)
    match a with
    | ⟨0, _⟩ =>
      show win1_0.index t (0 : Fin 2) * 2000 + 1 * p.val = win1_4.index t (0 : Fin 2) * 2000 + 1 * p.val
      omega
    | ⟨1, _⟩ =>
      show win1_0.index t (1 : Fin 2) * 64 + 1 * k.val = k.val
      omega
  · show V c main_v41 (((cfg1.win 1).blk t).view.emb (ix2 p (0 : Fin 1))) = V c main_v41 (ix2 _ (0 : Fin 1))
    refine congrArg (V c main_v41) (funext fun a => Fin.ext ?_)
    match a with
    | ⟨0, _⟩ =>
      show win1_1.index t (0 : Fin 2) * 2000 + 1 * p.val = win1_4.index t (0 : Fin 2) * 2000 + 1 * p.val
      omega
    | ⟨1, _⟩ =>
      show win1_1.index t (1 : Fin 2) * 1 + 1 * 0 = 0
      omega
  · intro k
    show V c main_arg5 (((cfg1.win 2).blk t).view.emb (ix2 k q)) = V c main_arg5 (ix2 k _)
    refine congrArg (V c main_arg5) (funext fun a => Fin.ext ?_)
    match a with
    | ⟨0, _⟩ =>
      show win1_2.index t (0 : Fin 2) * 64 + 1 * k.val = k.val
      omega
    | ⟨1, _⟩ =>
      show win1_2.index t (1 : Fin 2) * 32 + 1 * q.val = win1_4.index t (1 : Fin 2) * 32 + 1 * q.val
      omega
  · show V c main_arg6 (((cfg1.win 3).blk t).view.emb (ix1 q)) = V c main_arg6 (ix1 _)
    refine congrArg (V c main_arg6) (funext fun a => Fin.ext ?_)
    match a with
    | ⟨0, _⟩ =>
      show win1_3.index t (0 : Fin 1) * 32 + 1 * q.val = win1_4.index t (1 : Fin 2) * 32 + 1 * q.val
      omega

/-- An index of the output array is in point `t`'s block iff each coordinate is in the block's range on its axis. -/
theorem mem_blk (t : Fin cfg1.N) (i : S50000x32.Idx) :
    i ∈ ((cfg1.win 4).blk t).view.set ↔
      ∀ a : Fin 2, win1_4.index t a * S2000x32.size a ≤ (i a).val ∧ (i a).val < win1_4.index t a * S2000x32.size a + S2000x32.size a := by
  show i ∈ ((View.whole main_v42).slice (win1_4.rect t)).set ↔ _
  rw [View.set_slice_whole, Rect.mem_set_unit]
  exact Iff.rfl

/-- Every index of the output array is in the block of the point its row falls in (row r is in block r / 2000). -/
theorem cover (i : S50000x32.Idx) : ∃ t : Fin cfg1.N, (cfg1.win 4).flush t = true ∧ i ∈ ((cfg1.win 4).blk t).view.set := by
  have hi0 : (i 0).val < 50000 := (i 0).isLt
  have hi1 : (i 1).val < 32 := (i 1).isLt
  have ht : (i 0).val / 2000 < cfg1.N := by
    show (i 0).val / 2000 < grid1.N
    rw [N_1]; omega
  obtain ⟨-, -, -, -, -, -, -, e40, e41⟩ := idx_facts ⟨(i 0).val / 2000, ht⟩
  have e40' : win1_4.index ⟨(i 0).val / 2000, ht⟩ (0 : Fin 2) = (i 0).val / 2000 := e40
  refine ⟨⟨(i 0).val / 2000, ht⟩, flush1_4 _, ?_⟩
  rw [mem_blk]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    omega
  | ⟨1, _⟩ =>
    show win1_4.index ⟨(i 0).val / 2000, ht⟩ (1 : Fin 2) * 32 ≤ (i 1).val
      ∧ (i 1).val < win1_4.index ⟨(i 0).val / 2000, ht⟩ (1 : Fin 2) * 32 + 32
    omega

/-- THE ARRAY after the call: the second layer of the arrays as the call finds them. -/
theorem final (c : Dev nD) :
    (dat1 V c).arrAt 4 cfg1.N
      = outRows (V c main_v40) (fun r => V c main_v41 (ix2 r (0 : Fin 1))) (V c main_arg5) (V c main_arg6) :=
  (dat1 V c).arrAt_eq_of_cover 4 _ (fun t _ => flushed_eq V c t) cover

end Cert.GraphConv.Region1

end
-- ==== Proof.KernelValue.lean ====
/-
  The kernel's result as the network of the launch arguments.

  The run's buffer contents pass four boundaries. Before the first pallas_call the host operations leave: the aggregated
  input features (`aggregate x ns src dst`), the in-degree scale reshaped to one column, and the degree scales `ns`, `nd`
  themselves. The first call overwrites one array with the first layer of those. The host operations between the calls
  aggregate that array again (same `ns`, same edges) and reshape `nd` to a column again. The second call leaves the second
  layer. Each host stretch is read as the reference functions applied to the contents before it — the shared chains
  `degNorm` and `aggregate` never opened —, each call by the value of its region, and a scale column read at row r is
  the scale vector at r.
-/
import proofs.«137707_j19713899889202_1_alg».proof.Proof.Gen.KernelIdeal.Frame
import proofs.«137707_j19713899889202_1_alg».proof.Proof.Region0
import proofs.«137707_j19713899889202_1_alg».proof.Proof.Region1
import Idealize.ShloMosaic.Lib.StableHlo.Run

set_option maxRecDepth 16384

noncomputable section

namespace Cert.GraphConv.KernelValue

open Idealize.ShloMosaic Idealize.ShloMosaic.TcCoe Idealize.ShloMosaic.ValueIdx Idealize.SL.Sem
open Idealize.ShloMosaic.StableHlo
open Cert.KernelIdeal Cert.KernelIdeal.Gen Cert.GraphConv
open Cert.KernelIdeal.Facts₀

variable (m : (ℓ : Loc nD τ sig) → Buf (Elt Ideal) ℓ) (ρ : Dev nD → PrngReg)

/-! ## Before the first call -/

/-- Window 0 of the first call: the input features aggregated along the edges. -/
theorem entry0_agg (c : Dev nD) :
    V1 m ρ c main_v25 = aggregate (F := Ideal) (m ((c : Thread nD τ).loc main_arg0))
      (degNorm (F := Ideal) (m ((c : Thread nD τ).loc main_arg1)))
      (m ((c : Thread nD τ).loc main_arg1)) (m ((c : Thread nD τ).loc main_arg2)) := by
  show StableHlo.after hostOps0 (W0 m ρ c) (Proc.devRef .tc main_v25) = _
  after_results_simp
  rfl

/-- Window 1 of the first call: the in-degree scale as one column. -/
theorem entry0_col (c : Dev nD) :
    V1 m ρ c main_v26 = shapeCast S50000x1 (degNorm (F := Ideal) (m ((c : Thread nD τ).loc main_arg2))) Facts₀.shapeCasts_S50000_S50000x1 := by
  show StableHlo.after hostOps0 (W0 m ρ c) (Proc.devRef .tc main_v26) = _
  after_results_simp
  rfl

/-- The out-degree scale, which the second aggregation reads again. -/
theorem entry0_ns (c : Dev nD) :
    W1 m ρ c (Proc.devRef .tc main_v9) = degNorm (F := Ideal) (m ((c : Thread nD τ).loc main_arg1)) := by
  show StableHlo.after hostOps0 (W0 m ρ c) (Proc.devRef .tc main_v9) = _
  after_results_simp
  rfl

/-- The in-degree scale, which the second call's column is reshaped from. -/
theorem entry0_nd (c : Dev nD) :
    W1 m ρ c (Proc.devRef .tc main_v12) = degNorm (F := Ideal) (m ((c : Thread nD τ).loc main_arg2)) := by
  show StableHlo.after hostOps0 (W0 m ρ c) (Proc.devRef .tc main_v12) = _
  after_results_simp
  rfl

/-- No host operation before the first call writes an argument. -/
theorem entry0_arg1 (c : Dev nD) : W1 m ρ c (Proc.devRef .tc main_arg1) = m ((c : Thread nD τ).loc main_arg1) := by
  show StableHlo.after hostOps0 (W0 m ρ c) (Proc.devRef .tc main_arg1) = _
  after_results_simp
theorem entry0_arg2 (c : Dev nD) : W1 m ρ c (Proc.devRef .tc main_arg2) = m ((c : Thread nD τ).loc main_arg2) := by
  show StableHlo.after hostOps0 (W0 m ρ c) (Proc.devRef .tc main_arg2) = _
  after_results_simp
theorem entry0_arg3 (c : Dev nD) : V1 m ρ c main_arg3 = m ((c : Thread nD τ).loc main_arg3) := by
  show StableHlo.after hostOps0 (W0 m ρ c) (Proc.devRef .tc main_arg3) = _
  after_results_simp
theorem entry0_arg4 (c : Dev nD) : V1 m ρ c main_arg4 = m ((c : Thread nD τ).loc main_arg4) := by
  show StableHlo.after hostOps0 (W0 m ρ c) (Proc.devRef .tc main_arg4) = _
  after_results_simp
theorem entry0_arg5 (c : Dev nD) : W1 m ρ c (Proc.devRef .tc main_arg5) = m ((c : Thread nD τ).loc main_arg5) := by
  show StableHlo.after hostOps0 (W0 m ρ c) (Proc.devRef .tc main_arg5) = _
  after_results_simp
theorem entry0_arg6 (c : Dev nD) : W1 m ρ c (Proc.devRef .tc main_arg6) = m ((c : Thread nD τ).loc main_arg6) := by
  show StableHlo.after hostOps0 (W0 m ρ c) (Proc.devRef .tc main_arg6) = _
  after_results_simp

/-! ## After the first call -/

/-- The first call's output array holds the first layer of the aggregated input features. -/
theorem exit0_hidden (c : Dev nD) :
    W2 m ρ c (Proc.devRef .tc main_v27)
      = hiddenLayer (aggregate (F := Ideal) (m ((c : Thread nD τ).loc main_arg0))
            (degNorm (F := Ideal) (m ((c : Thread nD τ).loc main_arg1)))
            (m ((c : Thread nD τ).loc main_arg1)) (m ((c : Thread nD τ).loc main_arg2)))
          (degNorm (F := Ideal) (m ((c : Thread nD τ).loc main_arg2)))
          (m ((c : Thread nD τ).loc main_arg3)) (m ((c : Thread nD τ).loc main_arg4)) := by
  refine (W2_arr m ρ c 4).trans ((Region0.final (V1 m ρ) c).trans ?_)
  have hcol : (fun r : Fin 50000 => V1 m ρ c main_v26 (ix2 r (0 : Fin 1)))
      = fun r => degNorm (F := Ideal) (m ((c : Thread nD τ).loc main_arg2)) (ix1 r) :=
    funext fun r => by rw [entry0_col]; exact colScale_eq _ r
  unfold hiddenLayer
  rw [hcol, entry0_agg, entry0_arg3, entry0_arg4]

/-- The first call writes none of these: they hold what they held at its entry. -/
theorem exit0_ns (c : Dev nD) : W2 m ρ c (Proc.devRef .tc main_v9) = degNorm (F := Ideal) (m ((c : Thread nD τ).loc main_arg1)) :=
  (W2_of_ne m ρ c main_v9 (by decide)).trans (entry0_ns m ρ c)
theorem exit0_nd (c : Dev nD) : W2 m ρ c (Proc.devRef .tc main_v12) = degNorm (F := Ideal) (m ((c : Thread nD τ).loc main_arg2)) :=
  (W2_of_ne m ρ c main_v12 (by decide)).trans (entry0_nd m ρ c)
theorem exit0_arg1 (c : Dev nD) : W2 m ρ c (Proc.devRef .tc main_arg1) = m ((c : Thread nD τ).loc main_arg1) :=
  (W2_of_ne m ρ c main_arg1 (by decide)).trans (entry0_arg1 m ρ c)
theorem exit0_arg2 (c : Dev nD) : W2 m ρ c (Proc.devRef .tc main_arg2) = m ((c : Thread nD τ).loc main_arg2) :=
  (W2_of_ne m ρ c main_arg2 (by decide)).trans (entry0_arg2 m ρ c)
theorem exit0_arg5 (c : Dev nD) : W2 m ρ c (Proc.devRef .tc main_arg5) = m ((c : Thread nD τ).loc main_arg5) :=
  (W2_of_ne m ρ c main_arg5 (by decide)).trans (entry0_arg5 m ρ c)
theorem exit0_arg6 (c : Dev nD) : W2 m ρ c (Proc.devRef .tc main_arg6) = m ((c : Thread nD τ).loc main_arg6) :=
  (W2_of_ne m ρ c main_arg6 (by decide)).trans (entry0_arg6 m ρ c)

/-! ## Before the second call -/

/-- Window 0 of the second call: the first layer's output aggregated along the same edges with the same scale. -/
theorem entry1_agg (c : Dev nD) :
    V3 m ρ c main_v40 = aggregate (F := Ideal) (W2 m ρ c (Proc.devRef .tc main_v27)) (W2 m ρ c (Proc.devRef .tc main_v9))
      (W2 m ρ c (Proc.devRef .tc main_arg1)) (W2 m ρ c (Proc.devRef .tc main_arg2)) := by
  show StableHlo.after hostOps1 (W2 m ρ c) (Proc.devRef .tc main_v40) = _
  after_results_simp
  rfl

/-- Window 1 of the second call: the in-degree scale as one column, again. -/
theorem entry1_col (c : Dev nD) :
    V3 m ρ c main_v41 = shapeCast S50000x1 (W2 m ρ c (Proc.devRef .tc main_v12)) Facts₀.shapeCasts_S50000_S50000x1 := by
  show StableHlo.after hostOps1 (W2 m ρ c) (Proc.devRef .tc main_v41) = _
  after_results_simp
  rfl

theorem entry1_arg5 (c : Dev nD) : V3 m ρ c main_arg5 = m ((c : Thread nD τ).loc main_arg5) := by
  refine Eq.trans ?_ (exit0_arg5 m ρ c)
  show StableHlo.after hostOps1 (W2 m ρ c) (Proc.devRef .tc main_arg5) = _
  after_results_simp
theorem entry1_arg6 (c : Dev nD) : V3 m ρ c main_arg6 = m ((c : Thread nD τ).loc main_arg6) := by
  refine Eq.trans ?_ (exit0_arg6 m ρ c)
  show StableHlo.after hostOps1 (W2 m ρ c) (Proc.devRef .tc main_arg6) = _
  after_results_simp

/-! ## After the second call -/

/-- THE RESULT: the second call's output array holds the network of the launch arguments. -/
theorem result (c : Dev nD) :
    W4 m ρ c (Proc.devRef .tc main_v42)
      = network (m ((c : Thread nD τ).loc main_arg0)) (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6)) := by
  refine (W4_arr m ρ c 4).trans ((Region1.final (V3 m ρ) c).trans ?_)
  have hcol : (fun r : Fin 50000 => V3 m ρ c main_v41 (ix2 r (0 : Fin 1)))
      = fun r => degNorm (F := Ideal) (m ((c : Thread nD τ).loc main_arg2)) (ix1 r) :=
    funext fun r => by rw [entry1_col, exit0_nd]; exact colScale_eq _ r
  unfold network outLayer
  rw [hcol, entry1_agg, exit0_hidden, exit0_ns, exit0_arg1, exit0_arg2, entry1_arg5, entry1_arg6]

end Cert.GraphConv.KernelValue

end
-- ==== Proof.RefValue.lean ====
/-
  The reference's result as the same network of its arguments.

  The reference's composed term spells the network with the host's operations: twice the degree scales, the gather along
  src and the scatter-add along dst, the scale broadcast to a column and along the rows, a dot_general, the bias
  broadcast to a row and down the rows, and the ramp as a maximum against a broadcast zero. The degree scales and the
  aggregation are, operation for operation, the chains `degNorm` and `aggregate` (the two programs print the same
  records, so this is by definition); each dense layer is read entry by entry with `host_dense_apply`.
-/
import proofs.«137707_j19713899889202_1_alg».proof.Proof.Gen.KernelIdeal
import proofs.«137707_j19713899889202_1_alg».proof.Proof.Gen.ReferenceIdeal.Run
import proofs.«137707_j19713899889202_1_alg».proof.Proof.Spec

set_option maxRecDepth 16384

noncomputable section

namespace Cert.GraphConv.RefValue

open Idealize.ShloMosaic Idealize.ShloMosaic.TcCoe Idealize.ShloMosaic.ValueIdx Idealize.SL.Sem
open Cert.ReferenceIdeal Cert.GraphConv
open Cert.ReferenceIdeal.Facts₀

/-- The reference's degree scale is the shared chain. -/
theorem degNorm_eq (idx : (⟨S800000, .i32⟩ : BufTy).Contents (Elt Ideal)) :
    Host.rsqrt (maximumf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 idx)
        (broadcastInDim S800000 ![] bcast_S_S800000 (constant (F := Ideal) S_ .f32 0x3F800000#32)))
      (broadcastInDim S50000 ![] bcast_S_S50000 (constant (F := Ideal) S_ .f32 0x3F800000#32)))
    = degNorm (F := Ideal) idx := rfl

/-- The reference's gather-and-scatter is the shared chain. -/
theorem aggregate_eq (h : (⟨S50000x64, .f32⟩ : BufTy).Contents (Elt Ideal)) (ns : (⟨S50000, .f32⟩ : BufTy).Contents (Elt Ideal))
    (src dst : (⟨S800000, .i32⟩ : BufTy).Contents (Elt Ideal)) :
    Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 dst)
      (Host.gather gather_S50000x64_S800000x1_S800000x64_1_0_n_n_0_1_164
        (mulf h (broadcastInDim S50000x64 ![0, 1] bcast_S50000x1_S50000x64_0_1 (broadcastInDim S50000x1 ![0] bcast_S50000_S50000x1_0 ns)))
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
    = aggregate (F := Ideal) h ns src dst := rfl

/-- The reference's first layer with its ramp, entry by entry. -/
theorem hidden_eq (A : FVec Ideal S50000x64 .f32) (d : FVec Ideal S50000 .f32) (W : FVec Ideal S64x64 .f32) (b : FVec Ideal S64 .f32) :
    maximumf
      (addf (Host.dotGeneral dot_S50000x64_S64x64_S50000x64_1_0_0_1_n_n none
          (mulf A (broadcastInDim S50000x64 ![0, 1] bcast_S50000x1_S50000x64_0_1 (broadcastInDim S50000x1 ![0] bcast_S50000_S50000x1_0 d))) W)
        (broadcastInDim S50000x64 ![0, 1] bcast_S1x64_S50000x64_0_1 (broadcastInDim S1x64 ![1] bcast_S64_S1x64_1 b)))
      (broadcastInDim S50000x64 ![] bcast_S_S50000x64 (constant (F := Ideal) S_ .f32 0x00000000#32))
    = hiddenLayer A d W b := by
  funext i
  obtain ⟨p, q, rfl⟩ : ∃ (p : Fin 50000) (q : Fin 64), i = ix2 p q := ⟨i 0, i 1, eq_ix2 i⟩
  exact congrArg (fun z => max z (Ideal.ofBits .f32 0x00000000#32)) (host_dense_apply _ rfl A d W b _ _ _ _ p q)

/-- The reference's second layer, entry by entry. -/
theorem out_eq (A : FVec Ideal S50000x64 .f32) (d : FVec Ideal S50000 .f32) (W : FVec Ideal S64x32 .f32) (b : FVec Ideal S32 .f32) :
    addf (Host.dotGeneral dot_S50000x64_S64x32_S50000x32_1_0_0_1_n_n none
        (mulf A (broadcastInDim S50000x64 ![0, 1] bcast_S50000x1_S50000x64_0_1 (broadcastInDim S50000x1 ![0] bcast_S50000_S50000x1_0 d))) W)
      (broadcastInDim S50000x32 ![0, 1] bcast_S1x32_S50000x32_0_1 (broadcastInDim S1x32 ![1] bcast_S32_S1x32_1 b))
    = outLayer A d W b := by
  funext i
  obtain ⟨p, q, rfl⟩ : ∃ (p : Fin 50000) (q : Fin 32), i = ix2 p q := ⟨i 0, i 1, eq_ix2 i⟩
  exact host_dense_apply _ rfl A d W b _ _ _ _ p q

/-- THE REFERENCE'S RESULT is the network of its arguments. -/
theorem ref_result (m : (ℓ : Loc nD τ sig) → Buf (Elt Ideal) ℓ) (c : Dev nD) :
    Cert.ReferenceIdeal.Value.res_main_v66 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.Value.res_main_v66
  rw [degNorm_eq, degNorm_eq, aggregate_eq, hidden_eq, aggregate_eq, out_eq]
  rfl

end Cert.GraphConv.RefValue

end
-- ==== Proof.lean ====
/-
  A two-layer graph convolution over 50000 nodes and 800000 edges: the kernel's program equals its reference over the
  extended reals.

  Both programs compute, from node features x, edge endpoints src and dst, and two layers' weights and biases,

      ns = rsqrt (max outdegree 1),   nd = rsqrt (max indegree 1),
      aggregate h = the sum over each node's incoming edges of the rows of h * ns at the edges' sources,
      result = (aggregate (max ((aggregate x * nd) W1 + b1) 0) * nd) W2 + b2.

  The degree counts, the gather and the scatter-add are host operations in both programs, the same ones, and are carried
  as opaque functions. The programs differ in the dense layers: the reference multiplies on the host; the kernel's
  program runs two pallas_calls, each over 25 blocks of 2000 rows, with the scale as a one-column array, both product
  operands narrowed to bf16 and the bias as one row. A change of float format is the identity on extended reals and the
  matrix product into a zero accumulator is the same sum over k as the host's dot_general, so each block's entry (p, q)
  is the layer's entry (2000 t + p, q); the blocks tile the rows. No law of arithmetic beyond that is used: the two sides
  are the same sums of the same products, so the inputs' finiteness is not needed.

  Modules: DenseLaw (a layer's entry, and its kernel and host spellings read at an entry), Spec (the network as one
  function), Region0 and Region1 (what each pallas_call leaves in its output array), ValueRun (the program's run with
  the result array read), KernelValue (the kernel's result is the network), RefValue (the reference's result is the
  network).
-/
import proofs.«137707_j19713899889202_1_alg».proof.Defs
import proofs.«137707_j19713899889202_1_alg».proof.Proof.Gen.Kernel
import proofs.«137707_j19713899889202_1_alg».proof.Proof.Gen.Kernel.Skeleton
import proofs.«137707_j19713899889202_1_alg».proof.Proof.Gen.Kernel.Launch
import proofs.«137707_j19713899889202_1_alg».proof.Proof.Gen.Kernel.Points
import proofs.«137707_j19713899889202_1_alg».proof.Proof.Gen.Kernel.Frame
import proofs.«137707_j19713899889202_1_alg».proof.Proof.Gen.KernelIdeal
import proofs.«137707_j19713899889202_1_alg».proof.Proof.Gen.KernelIdeal.Skeleton
import proofs.«137707_j19713899889202_1_alg».proof.Proof.Gen.KernelIdeal.Launch
import proofs.«137707_j19713899889202_1_alg».proof.Proof.Gen.KernelIdeal.Points
import proofs.«137707_j19713899889202_1_alg».proof.Proof.Gen.KernelIdeal.Frame
import proofs.«137707_j19713899889202_1_alg».proof.Proof.Gen.ReferenceIdeal
import proofs.«137707_j19713899889202_1_alg».proof.Proof.Gen.Pre_finite_inputs
import proofs.«137707_j19713899889202_1_alg».proof.Proof.Gen.ReferenceIdeal.Run
import proofs.«137707_j19713899889202_1_alg».proof.Proof.ValueRun
import proofs.«137707_j19713899889202_1_alg».proof.Proof.KernelValue
import proofs.«137707_j19713899889202_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and keeps its arguments: its generated frame. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the network of those arguments in their result
    arrays: the kernel's by the value of its two regions carried through the host operations around them, the
    reference's by its composed term read layer by layer. -/
theorem algebraic : Cert.algebraic_KernelIdeal_ReferenceIdeal := by
  intro m ρ m' ρ' _ hagree
  refine ⟨fun c => Cert.GraphConv.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.GraphConv.KernelValue.result m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.GraphConv.RefValue.ref_result, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
